-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg2 : IVec S800000 32) (main_v13 : IVec S_ 1) (main_v15 : IVec S800000 1) (main_c_5 : IVec S_ 32) : IVec S_ 1 :=
  let main_v16 : IVec S800000 32 := broadcastInDim S800000 ![] bcast_S_S800000 main_c_5
  let main_v17 : IVec S800000 1 := cmpi .slt main_arg1 main_v16
  let main_v18 : IVec S800000 1 := andi main_v15 main_v17
  let main_c_6 : IVec S_ 1 := constantI S_ 1 1#1
  let main_v19 : IVec S_ 1 := (fun x v => Host.reduce IntOp.andi x v reducesTo_S800000_S_d0 h_S_) main_v18 main_c_6
  let main_v20 : IVec S_ 1 := andi main_v13 main_v19
  let main_c_7 : IVec S_ 32 := constantI S_ 32 4294917296#32
  let main_v21 : IVec S800000 32 := broadcastInDim S800000 ![] bcast_S_S800000 main_c_7
  let main_v22 : IVec S800000 1 := cmpi .sge main_arg2 main_v21
  let main_c_8 : IVec S_ 32 := constantI S_ 32 50000#32
  let main_v23 : IVec S800000 32 := broadcastInDim S800000 ![] bcast_S_S800000 main_c_8
  let main_v24 : IVec S800000 1 := cmpi .slt main_arg2 main_v23
  let main_v25 : IVec S800000 1 := andi main_v22 main_v24
  let main_c_9 : IVec S_ 1 := constantI S_ 1 1#1
  let main_v26 : IVec S_ 1 := (fun x v => Host.reduce IntOp.andi x v reducesTo_S800000_S_d0 h_S_) main_v25 main_c_9
  let main_v27 : IVec S_ 1 := andi main_v20 main_v26
  main_v27

def fn {F : FTy → Type} [FloatOps F] (main_arg0 : FVec F S50000x128 .f32) (main_arg1 : IVec S800000 32) (main_arg2 : IVec S800000 32) (main_arg3 : FVec F S256x1 .f32) (main_arg4 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x1 .f32 := Host.absf main_arg3
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_c_4 : IVec S_ 32 := constantI S_ 32 4294917296#32
  let main_v14 : IVec S800000 32 := broadcastInDim S800000 ![] bcast_S_S800000 main_c_4
  let main_v15 : IVec S800000 1 := cmpi .sge main_arg1 main_v14
  let main_c_5 : IVec S_ 32 := constantI S_ 32 50000#32
  fn_part1 (F := F) main_arg1 main_arg2 main_v13 main_v15 main_c_5
-- ==== Kernel.lean ====
abbrev S50000x128 : Shape := ⟨2, ![50000, 128]⟩
abbrev S800000 : Shape := ⟨1, ![800000]⟩
abbrev S256x1 : Shape := ⟨2, ![256, 1]⟩
abbrev S1 : Shape := ⟨1, ![1]⟩
abbrev S128x1 : Shape := ⟨2, ![128, 1]⟩
abbrev S128x2 : Shape := ⟨2, ![128, 2]⟩
abbrev S2x128 : Shape := ⟨2, ![2, 128]⟩
abbrev S_ : Shape := ⟨0, ![]⟩
abbrev S51200x128 : Shape := ⟨2, ![51200, 128]⟩
abbrev S2x51200 : Shape := ⟨2, ![2, 51200]⟩
abbrev S12800x128 : Shape := ⟨2, ![12800, 128]⟩
abbrev S2x12800 : Shape := ⟨2, ![2, 12800]⟩
abbrev S1x50000 : Shape := ⟨2, ![1, 50000]⟩
abbrev S50000 : Shape := ⟨1, ![50000]⟩
abbrev S800000x1 : Shape := ⟨2, ![800000, 1]⟩
abbrev S1x1 : Shape := ⟨2, ![1, 1]⟩

abbrev nBuf : Space → Nat
  | .hbm => 66
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x1, .f32⟩
  | .hbm, ⟨4, _⟩ => ⟨S1, .f32⟩
  | .hbm, ⟨5, _⟩ => ⟨S128x1, .f32⟩
  | .hbm, ⟨6, _⟩ => ⟨S128x1, .f32⟩
  | .hbm, ⟨7, _⟩ => ⟨S128x2, .f32⟩
  | .hbm, ⟨8, _⟩ => ⟨S2x128, .f32⟩
  | .hbm, ⟨9, _⟩ => ⟨S_, .i32⟩
  | .hbm, ⟨10, _⟩ => ⟨S_, .f32⟩
  | .hbm, ⟨11, _⟩ => ⟨S51200x128, .f32⟩
  | .hbm, ⟨12, _⟩ => ⟨S2x51200, .f32⟩
  | .hbm, ⟨13, _⟩ => ⟨S1x50000, .f32⟩
  | .hbm, ⟨14, _⟩ => ⟨S50000, .f32⟩
  | .hbm, ⟨15, _⟩ => ⟨S1x50000, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S1, .i32⟩
  | .hbm, ⟨26, _⟩ => ⟨S_, .i32⟩
  | .hbm, ⟨27, _⟩ => ⟨S800000x1, .i32⟩
  | .hbm, ⟨28, _⟩ => ⟨S800000x1, .i1⟩
  | .hbm, ⟨29, _⟩ => ⟨S1x1, .i32⟩
  | .hbm, ⟨30, _⟩ => ⟨S800000x1, .i32⟩
  | .hbm, ⟨31, _⟩ => ⟨S800000x1, .i1⟩
  | .hbm, ⟨32, _⟩ => ⟨S800000x1, .i1⟩
  | .hbm, ⟨33, _⟩ => ⟨S_, .i1⟩
  | .hbm, ⟨34, _⟩ => ⟨S800000, .i1⟩
  | .hbm, ⟨35, _⟩ => ⟨S800000, .f32⟩
  | .hbm, ⟨36, _⟩ => ⟨S_, .f32⟩
  | .hbm, ⟨37, _⟩ => ⟨S800000, .f32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000, .f32⟩
  | .hbm, ⟨58, _⟩ => ⟨S_, .f32⟩
  | .hbm, ⟨59, _⟩ => ⟨S800000, .f32⟩
  | .hbm, ⟨60, _⟩ => ⟨S800000, .f32⟩
  | .hbm, ⟨61, _⟩ => ⟨S800000, .f32⟩
  | .hbm, ⟨62, _⟩ => ⟨S_, .f32⟩
  | .hbm, ⟨63, _⟩ => ⟨S800000, .f32⟩
  | .hbm, ⟨64, _⟩ => ⟨S800000, .f32⟩
  | .hbm, ⟨65, _⟩ => ⟨S800000x1, .f32⟩
  | .local _ .vmem, ⟨0, _⟩ => ⟨S12800x128, .f32⟩
  | .local _ .vmem, ⟨1, _⟩ => ⟨S12800x128, .f32⟩
  | .local _ .vmem, ⟨2, _⟩ => ⟨S2x128, .f32⟩
  | .local _ .vmem, ⟨3, _⟩ => ⟨S2x12800, .f32⟩
  | .local _ .vmem, ⟨4, _⟩ => ⟨S2x12800, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_3 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v10 : Ref sig .tc := ⟨.hbm, 38, rfl⟩
abbrev main_call2_c : Ref sig .tc := ⟨.hbm, 39, rfl⟩
abbrev main_call2_v0 : Ref sig .tc := ⟨.hbm, 40, rfl⟩
abbrev main_call2_v1 : Ref sig .tc := ⟨.hbm, 41, rfl⟩
abbrev main_call2_c_0 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_c_1 : Ref sig .tc := ⟨.hbm, 47, rfl⟩
abbrev main_call2_c_2 : Ref sig .tc := ⟨.hbm, 48, rfl⟩
abbrev main_call2_v6 : Ref sig .tc := ⟨.hbm, 49, rfl⟩
abbrev main_call2_v7 : Ref sig .tc := ⟨.hbm, 50, rfl⟩
abbrev main_call2_v8 : Ref sig .tc := ⟨.hbm, 51, rfl⟩
abbrev main_call2_v9 : Ref sig .tc := ⟨.hbm, 52, rfl⟩
abbrev main_call2_v10 : Ref sig .tc := ⟨.hbm, 53, rfl⟩
abbrev main_call2_v11 : Ref sig .tc := ⟨.hbm, 54, rfl⟩
abbrev main_call2_c_3 : Ref sig .tc := ⟨.hbm, 55, rfl⟩
abbrev main_call2_v12 : Ref sig .tc := ⟨.hbm, 56, rfl⟩
abbrev main_call2_v13 : Ref sig .tc := ⟨.hbm, 57, rfl⟩
abbrev main_call2_cst : Ref sig .tc := ⟨.hbm, 58, rfl⟩
abbrev main_call2_v14 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x12800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  transposes_S128x2_S2x128_1_0 : S128x2.Transposes [1, 0] S2x128
  pads_S50000x128_S51200x128_012000_000 : S50000x128.Pads (![0, 0] : Fin 2 → Nat) ![1200, 0] ![0, 0] S51200x128
  h_S_ : 0 < S_.numel
  inb_S12800x128_S12800x128_0_0 : ∀ a, (![0, 0] : Fin 2 → Nat) a + S12800x128.size a ≤ S12800x128.size a
  h_S12800x128 : 0 < S12800x128.numel
  shapeCasts_S12800x128_S12800x128 : S12800x128.ShapeCasts S12800x128
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  shapeCasts_S2x128_S2x128 : S2x128.ShapeCasts S2x128
  inb_S2x12800_S2x12800_0_0 : ∀ a, (![0, 0] : Fin 2 → Nat) a + S2x12800.size a ≤ S2x12800.size a
  h_S2x12800 : 0 < S2x12800.numel
  slices_S2x51200_S1x50000_0_0 : S2x51200.Slices ![0, 0] S1x50000
  shapeCasts_S1x50000_S50000 : S1x50000.ShapeCasts S50000
  slices_S2x51200_S1x50000_1_0 : S2x51200.Slices ![1, 0] S1x50000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  shapeCasts_S1_S_ : S1.ShapeCasts S_
  shapeCasts_S800000_S800000x1 : S800000.ShapeCasts S800000x1
  dot_S2x128_S12800x128_S2x12800_1_1_0_0_n_n_wf : DotDims.WF S2x128 S12800x128 S2x12800 [1] [1] [0] [0] [] []
  gather_S50000_S800000x1_S800000_n_0_n_n_0_1_1_wf : GatherDims.WF S50000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S51200x128.size a
  hwx0_0 : ∀ i : grid0.Coords, EltTy.bits .f32 = 32 ∨ (Rect.block (s := S51200x128) S12800x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x128.size a ≤ S2x128.size a
  hwx0_1 : ∀ i : grid0.Coords, EltTy.bits .f32 = 32 ∨ (Rect.block (s := S2x128) S2x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x12800.size a ≤ S2x51200.size a
  hwx0_2 : ∀ i : grid0.Coords, EltTy.bits .f32 = 32 ∨ (Rect.block (s := S2x51200) S2x12800.size (cc0_transform_2 i) (hinb0_2 i)).WholeWords (EltTy.packing .f32)

variable [Facts₀]

def dot_S2x128_S12800x128_S2x12800_1_1_0_0_n_n : DotDims S2x128 S12800x128 S2x12800 where
  lhsContracting := [1]
  rhsContracting := [1]
  lhsNonContracting := [0]
  rhsNonContracting := [0]
  lhsBatch := []
  rhsBatch := []
  wf := dot_S2x128_S12800x128_S2x12800_1_1_0_0_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf

abbrev win0_0 : Pipeline.Window sig grid0 :=
  Pipeline.Window.ofSpec (Memref.whole main_v4) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2x12800.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000 : Shape := ⟨1, ![800000]⟩
abbrev S256x1 : Shape := ⟨2, ![256, 1]⟩
abbrev S1 : Shape := ⟨1, ![1]⟩
abbrev S128x1 : Shape := ⟨2, ![128, 1]⟩
abbrev S_ : Shape := ⟨0, ![]⟩
abbrev S800000x1 : Shape := ⟨2, ![800000, 1]⟩
abbrev S800000x128 : Shape := ⟨2, ![800000, 128]⟩
abbrev S1x1 : Shape := ⟨2, ![1, 1]⟩

abbrev nBuf : Space → Nat
  | .hbm => 31
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S256x1, .f32⟩
  | .hbm, ⟨4, _⟩ => ⟨S1, .f32⟩
  | .hbm, ⟨5, _⟩ => ⟨S128x1, .f32⟩
  | .hbm, ⟨6, _⟩ => ⟨S128x1, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x128, .f32⟩
  | .hbm, ⟨16, _⟩ => ⟨S800000x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S800000x1, .f32⟩
  | .hbm, ⟨27, _⟩ => ⟨S800000x1, .f32⟩
  | .hbm, ⟨28, _⟩ => ⟨S1x1, .f32⟩
  | .hbm, ⟨29, _⟩ => ⟨S800000x1, .f32⟩
  | .hbm, ⟨30, _⟩ => ⟨S800000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  slices_S256x1_S128x1_0_0 : S256x1.Slices ![0, 0] S128x1
  slices_S256x1_S128x1_128_0 : S256x1.Slices ![128, 0] S128x1
  bcast_S_S800000 : S_.BroadcastsInDim S800000 (![] : Fin 0 → Fin S800000.rank)
  bcast_S800000_S800000x1_0 : S800000.BroadcastsInDim S800000x1 (![0] : Fin 1 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x128_S800000x1_S800000x128_1_0_n_n_0_1_1128_wf : GatherDims.WF S50000x128 S800000x1 S800000x128 [1] [0] [] [0] [] 1 ![1, 128]
  dot_S800000x128_S128x1_S800000x1_1_0_0_1_n_n_wf : DotDims.WF S800000x128 S128x1 S800000x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf

class Facts : Prop extends Facts₀ where

variable [Facts]
-- ==== Proof.Spec.lean ====
/-
  The edge score as ONE function of the argument arrays, and the index arithmetic both programs share.

  For an edge `e` with endpoint index words `s e` and `d e`, a node table `h : [50000, 128]`, a weight column
  `W : [256, 1]` and a bias `b : [1]`, the score is
      Σ_k h[row (s e), k] · W[k, 0]  +  Σ_k h[row (d e), k] · W[128 + k, 0]  +  b[0]
  on the extended reals, where `row a` is the row a signed 32-bit index word addresses: a negative word first has
  the extent 50000 added (numpy's wrap of a negative index), and the result is read signed and clamped into
  `[0, 49999]` (the clamp every gather applies to its start index). On the words of the evident domain
  `-50000 ≤ a < 50000` the wrapped word already lies in `[0, 49999]`, so the clamp does nothing and a range
  test `0 ≤ · ≤ 49999` of the wrapped word passes.
-/
import Idealize.ShloMosaic.Lib.ValueIdx
import Idealize.ShloMosaic.Lib.StableHlo.Predicate
import Idealize.ShloMosaic.PureOps.Ideal

noncomputable section

open scoped BigOperators

namespace Cert.EdgeScore

open Idealize.ShloMosaic Idealize.ShloMosaic.ValueIdx

/-- numpy's wrap of an index word into an axis of extent 50000: a negative word has the extent added. -/
def wrapWord (a : BitVec 32) : BitVec 32 :=
  Scalar.select (IntOp.cmpi .slt a 0#32) (IntOp.addi a 50000#32) a

/-- The row an index word addresses: the wrapped word read signed and clamped into the table. -/
def rowOf (a : BitVec 32) : Fin 50000 := ⟨min (wrapWord a).toInt.toNat (50000 - 1), by omega⟩

/-- The evident domain of an index into an axis of extent 50000: `-50000 ≤ a < 50000`, read signed. -/
def InRange (a : BitVec 32) : Prop := -50000 ≤ a.toInt ∧ a.toInt < 50000

/-- On the evident domain the wrapped word is a position of the axis. -/
theorem wrapWord_toNat_lt {a : BitVec 32} (h : InRange a) : (wrapWord a).toNat < 50000 := by
  obtain ⟨h1, h2⟩ := h
  unfold wrapWord Scalar.select IntOp.cmpi IntOp.addi
  simp only [BitVec.slt, BitVec.toInt_zero]
  by_cases hn : a.toInt < 0
  · rw [if_pos (by simp [hn])]
    rw [BitVec.toInt_eq_toNat_cond] at h1 hn
    rw [BitVec.toNat_add]
    have := a.isLt
    simp only [BitVec.toNat_ofNat]
    split at h1 <;> split at hn <;> omega
  · rw [if_neg (by simp [hn])]
    rw [BitVec.toInt_eq_toNat_cond] at h2 hn
    have := a.isLt
    split at h2 <;> omega

/-- So it reads the same signed and unsigned, -/
theorem wrapWord_toInt {a : BitVec 32} (h : InRange a) : (wrapWord a).toInt = (wrapWord a).toNat :=
  StableHlo.Predicate.toInt_eq_toNat_of_lt (by have := wrapWord_toNat_lt h; omega)

/-- and the range test `0 ≤ w ≤ 49999` of the wrapped word passes. -/
theorem wrapWord_inb {a : BitVec 32} (h : InRange a) :
    IntOp.andi (IntOp.cmpi .sge (wrapWord a) 0#32) (IntOp.cmpi .sle (wrapWord a) 49999#32) = 1#1 := by
  have hi := wrapWord_toInt h
  have hl := wrapWord_toNat_lt h
  have e1 : IntOp.cmpi .sge (wrapWord a) 0#32 = 1#1 := by
    unfold IntOp.cmpi
    simp only [BitVec.sle, BitVec.toInt_zero]
    rw [hi]; simp
  have e2 : IntOp.cmpi .sle (wrapWord a) 49999#32 = 1#1 := by
    unfold IntOp.cmpi
    simp only [BitVec.sle]
    rw [hi, show (49999#32 : BitVec 32).toInt = 49999 by decide]
    have : ((wrapWord a).toNat : Int) ≤ 49999 := by omega
    simp [this]
  rw [e1, e2]; decide

/-- THE SCORE: per edge, the source row against the first half of the weight column, plus the destination row
    against the second half, plus the bias. -/
def score (h : FVec Ideal ⟨2, ![50000, 128]⟩ .f32) (s d : IVec ⟨1, ![800000]⟩ 32)
    (W : FVec Ideal ⟨2, ![256, 1]⟩ .f32) (b : FVec Ideal ⟨1, ![1]⟩ .f32) : FVec Ideal ⟨2, ![800000, 1]⟩ .f32 :=
  fun i =>
    (∑ k : Fin 128, h (ix2 (rowOf (s (ix1 (i 0)))) k) * W (ix2 (⟨k.val, by omega⟩ : Fin 256) (0 : Fin 1)))
    + (∑ k : Fin 128, h (ix2 (rowOf (d (ix1 (i 0)))) k) * W (ix2 (⟨128 + k.val, by omega⟩ : Fin 256) (0 : Fin 1)))
    + b (ix1 (0 : Fin 1))

end Cert.EdgeScore

end
-- ==== Proof.PreRange.lean ====
/-
  What the precondition says of the two index arrays: every source and every destination index word lies in the
  evident domain `-50000 ≤ a < 50000` of an index into the 50000 rows.
-/
import proofs.«421932_j7739531067736_3_alg».proof.Pre_finite_inputs
import proofs.«421932_j7739531067736_3_alg».proof.Proof.Gen.Pre_finite_inputs
import proofs.«421932_j7739531067736_3_alg».proof.Proof.Spec
import Idealize.ShloMosaic.Lib.ReduceAll

noncomputable section

namespace Cert.EdgeScore.Pre

open Idealize.ShloMosaic Idealize.ShloMosaic.ValueIdx Cert.Pre_finite_inputs

/-- The lower bound of the evident domain, as a 32-bit word read signed. -/
private theorem toInt_lo : (4294917296#32 : BitVec 32).toInt = -50000 := by decide

/-- The upper bound of the evident domain, as a 32-bit word read signed. -/
private theorem toInt_hi : (50000#32 : BitVec 32).toInt = 50000 := by decide

/-- ONE RANGE TEST READ BACK. If the conjunction over all positions of `(x ≥ -50000) ∧ (x < 50000)` is one, then the
    word of `x` at each position lies in the evident domain: the conjunction over all positions being one makes the
    test one at each position, the test at a position is the conjunction of the two comparisons there, each bound is
    the same scalar at every position, and a signed comparison that is one orders the signed values. -/
theorem inRange_of_all (x : IVec S800000 32) (hb : S_.BroadcastsInDim S800000 (![] : Fin 0 → Fin S800000.rank))
    (hr : S800000.ReducesTo [0] S_) (hu : 0 < S_.numel) (init : IVec S_ 1)
    (h : Host.reduce IntOp.andi
          (andi (cmpi .sge x (broadcastInDim S800000 ![] hb (constantI S_ 32 4294917296#32)))
            (cmpi .slt x (broadcastInDim S800000 ![] hb (constantI S_ 32 50000#32)))) init hr hu ix0 = 1#1)
    (e : Fin 800000) : InRange (x (ix1 e)) := by
  -- the scalar shape has one index, so the conjunction runs over every position
  haveI : Subsingleton S_.Idx := ⟨fun _ _ => funext fun d => d.elim0⟩
  have h1 := Host.reduce_andi_all _ init hr hu ix0 h (ix1 e)
  -- at position `e`: both comparisons of the word there, each against its scalar bound
  change IntOp.andi (IntOp.cmpi .sge (x (ix1 e)) 4294917296#32) (IntOp.cmpi .slt (x (ix1 e)) 50000#32) = 1#1 at h1
  obtain ⟨hge, hlt⟩ := IntOp.andi_eq_one.1 h1
  have hge' := IntOp.cmpi_sge.1 hge
  have hlt' := IntOp.cmpi_slt.1 hlt
  rw [toInt_lo] at hge'
  rw [toInt_hi] at hlt'
  exact ⟨hge', hlt'⟩

theorem inRange_of_pre {F : FTy → Type} [FloatOps F] (x0 : FVec F S50000x128 .f32) (x1 x2 : IVec S800000 32)
    (x3 : FVec F S256x1 .f32) (x4 : FVec F S1 .f32)
    (h : Cert.Pre_finite_inputs.fn (F := F) x0 x1 x2 x3 x4 = fun _ => 1#1) (e : Fin 800000) :
    Cert.EdgeScore.InRange (x1 (ix1 e)) ∧ Cert.EdgeScore.InRange (x2 (ix1 e)) := by
  -- the precondition at its one index, with the chain of operations in view
  have h0 := congrFun h ValueIdx.ix0
  dsimp only [Cert.Pre_finite_inputs.fn, Cert.Pre_finite_inputs.fn_part1] at h0
  -- the outer conjunctions: (floats and source test) and destination test
  obtain ⟨h01, h2⟩ := IntOp.andi_eq_one.1 h0
  obtain ⟨_, h1⟩ := IntOp.andi_eq_one.1 h01
  exact ⟨inRange_of_all x1 _ _ _ _ h1 e, inRange_of_all x2 _ _ _ _ h2 e⟩

end Cert.EdgeScore.Pre

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.RefValue.lean ====
/-
  The reference's result is the edge score: read one operation at a time, each of its two row gathers addresses the
  row `rowOf` of the endpoint's index word, and each contraction against a half of the weight column is the sum over
  the 128 features; the two sums and the broadcast bias are added in the score's order.
-/
import proofs.«421932_j7739531067736_3_alg».proof.Proof.Gen.ReferenceIdeal.Read
import proofs.«421932_j7739531067736_3_alg».proof.Proof.Spec
import proofs.«421932_j7739531067736_3_alg».proof.Proof.LibGatherRows

noncomputable section

open scoped BigOperators

namespace Cert.EdgeScore.Ref

open Idealize.ShloMosaic Idealize.ShloMosaic.ValueIdx Cert.ReferenceIdeal Cert.ReferenceIdeal.Read

/-- The index word under the source gather is the wrapped source word. -/
theorem idx_src (x1 : IVec S800000 32) (e : Fin 800000) :
    val_main_v7 (F := Ideal) x1 (ix2 e (0 : Fin 1)) = wrapWord (x1 (ix1 e)) := by
  rw [val_main_v7_apply]
  have h : idx_main_v7 (ix2 e (0 : Fin 1)) = ix1 e :=
    funext fun a => Fin.ext (by match a with | ⟨0, _⟩ => rfl)
  rw [h, val_main_v6_apply, val_main_v3_apply, val_main_v5_apply, val_main_v2_apply, val_main_v4_apply,
    val_main_c_apply, val_main_c_0_apply]
  rfl

/-- The index word under the destination gather is the wrapped destination word. -/
theorem idx_dst (x2 : IVec S800000 32) (e : Fin 800000) :
    val_main_v15 (F := Ideal) x2 (ix2 e (0 : Fin 1)) = wrapWord (x2 (ix1 e)) := by
  rw [val_main_v15_apply]
  have h : idx_main_v15 (ix2 e (0 : Fin 1)) = ix1 e :=
    funext fun a => Fin.ext (by match a with | ⟨0, _⟩ => rfl)
  rw [h, val_main_v14_apply, val_main_v11_apply, val_main_v13_apply, val_main_v10_apply, val_main_v12_apply,
    val_main_c_1_apply, val_main_c_2_apply]
  rfl

/-- The source gather reads the node table at the row the source word addresses. -/
theorem gather_src (x0 : FVec Ideal S50000x128 .f32) (x1 : IVec S800000 32) (e : Fin 800000) (k : Fin 128) :
    val_main_v8 (F := Ideal) x0 x1 (ix2 e k) = x0 (ix2 (rowOf (x1 (ix1 e))) k) := by
  unfold val_main_v8
  refine (gather_rows_apply (N := 50000) (E := 800000) (C := 128) (by decide)
    Facts₀.gather_S50000x128_S800000x1_S800000x128_1_0_n_n_0_1_1128_wf x0 (val_main_v7 (F := Ideal) x1) e k).trans ?_
  refine congrArg (fun r : Fin 50000 => x0 (ix2 r k)) (Fin.ext ?_)
  show min (val_main_v7 (F := Ideal) x1 (ix2 e (0 : Fin 1))).toInt.toNat (50000 - 1)
    = min (wrapWord (x1 (ix1 e))).toInt.toNat (50000 - 1)
  rw [idx_src]

/-- The destination gather reads the node table at the row the destination word addresses. -/
theorem gather_dst (x0 : FVec Ideal S50000x128 .f32) (x2 : IVec S800000 32) (e : Fin 800000) (k : Fin 128) :
    val_main_v16 (F := Ideal) x0 x2 (ix2 e k) = x0 (ix2 (rowOf (x2 (ix1 e))) k) := by
  unfold val_main_v16
  refine (gather_rows_apply (N := 50000) (E := 800000) (C := 128) (by decide)
    Facts₀.gather_S50000x128_S800000x1_S800000x128_1_0_n_n_0_1_1128_wf x0 (val_main_v15 (F := Ideal) x2) e k).trans ?_
  refine congrArg (fun r : Fin 50000 => x0 (ix2 r k)) (Fin.ext ?_)
  show min (val_main_v15 (F := Ideal) x2 (ix2 e (0 : Fin 1))).toInt.toNat (50000 - 1)
    = min (wrapWord (x2 (ix1 e))).toInt.toNat (50000 - 1)
  rw [idx_dst]

/-- Stage by stage the reference's result is the edge score: the two contractions over the gathered rows, then the
    bias. -/
theorem ref_eq (x0 : FVec Ideal S50000x128 .f32) (x1 x2 : IVec S800000 32) (x3 : FVec Ideal S256x1 .f32)
    (x4 : FVec Ideal S1 .f32) :
    val_main_v21 (F := Ideal) x0 x1 x2 x3 x4 = Cert.EdgeScore.score x0 x1 x2 x3 x4 := by
  funext i
  obtain ⟨e, q, rfl⟩ : ∃ (e : Fin 800000) (q : Fin 1), i = ix2 e q := ⟨i 0, i 1, eq_ix2 i⟩
  obtain rfl : q = 0 := Subsingleton.elim _ _
  rw [val_main_v21_apply, val_main_v18_apply, val_main_v9_apply, val_main_v17_apply, val_main_v20_apply,
    val_main_v19_apply]
  simp only [Ideal.addf_def]
  unfold score
  congr 1
  · congr 1
    · refine Finset.sum_congr rfl fun k _ => ?_
      have hl : lidx_main_v9 (ix2 e (0 : Fin 1)) k = ix2 e k :=
        funext fun a => Fin.ext (by match a with | ⟨0, _⟩ => rfl | ⟨1, _⟩ => rfl)
      rw [hl, gather_src, val_main_v0_apply]
      congr 2
      exact funext fun a => Fin.ext (by match a with | ⟨0, _⟩ => rfl | ⟨1, _⟩ => rfl)
    · refine Finset.sum_congr rfl fun k _ => ?_
      have hl : lidx_main_v17 (ix2 e (0 : Fin 1)) k = ix2 e k :=
        funext fun a => Fin.ext (by match a with | ⟨0, _⟩ => rfl | ⟨1, _⟩ => rfl)
      rw [hl, gather_dst, val_main_v1_apply]
      congr 2
      exact funext fun a => Fin.ext (by match a with | ⟨0, _⟩ => rfl | ⟨1, _⟩ => rfl)
  · congr 1
    exact funext fun a => Fin.ext (by match a with | ⟨0, _⟩ => rfl)

end Cert.EdgeScore.Ref

end
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.KTake.lean ====
/-
  The fill-mode take of a rank-1 table, as one pure function, and what it reads on the evident domain.

  `takeFill tbl x` is, per edge `e`: wrap the index word `x e` (a negative word has 50000 added), test `0 ≤ w ≤ 49999` on
  the wrapped word, gather the table at the wrapped word (the gather clamps its start index into the table), and keep the
  gathered entry where the test passes, a fill value otherwise. Where every index word lies in `-50000 ≤ a < 50000` the
  test passes at every edge, so the result at `e` is the table's entry at the row `x e` addresses and the fill value is
  never met.
-/
import proofs.«421932_j7739531067736_3_alg».proof.Proof.Gen.KernelIdeal
import proofs.«421932_j7739531067736_3_alg».proof.Proof.Spec
import proofs.«421932_j7739531067736_3_alg».proof.Proof.LibReduceAnd
import Idealize.ShloMosaic.Lib.StableHlo.Predicate
import Idealize.ShloMosaic.Lib.Pipeline.Value
import Idealize.ShloMosaic.Lib.ValueIdx
import Idealize.ShloMosaic.PureOps.Ideal

noncomputable section

namespace Cert.KernelIdeal.Take

open Cert.KernelIdeal Idealize.ShloMosaic Idealize.ShloMosaic.ValueIdx Cert.EdgeScore
open Facts₀

/-- The index words wrapped, as the `[800000, 1]` column of start indices. -/
def wrapIdx (x : IVec S800000 32) : IVec S800000x1 32 :=
  broadcastInDim S800000x1 ![0] bcast_S800000_S800000x1_0
    (select (cmpi .slt x (broadcastInDim S800000 ![] bcast_S_S800000 (constantI S_ 32 0#32)))
      (addi x (broadcastInDim S800000 ![] bcast_S_S800000 (constantI S_ 32 50000#32))) x)

/-- The range test `0 ≤ w ≤ 49999` of a column of start indices, per edge. -/
def inbOf (idx : IVec S800000x1 32) : IVec S800000 1 :=
  Host.reduce IntOp.andi
    (andi (cmpi .sge idx (broadcastInDim S800000x1 ![] bcast_S_S800000x1 (constantI S_ 32 0#32)))
      (cmpi .sle idx (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The range test of the wrapped words. -/
def inbMask (x : IVec S800000 32) : IVec S800000 1 := inbOf (wrapIdx x)

/-- The table gathered at a column of start indices, kept where a mask is set and a fill value elsewhere. -/
def takeOf (mask : IVec S800000 1) (tbl : FVec Ideal S50000 .f32) (idx : IVec S800000x1 32) : FVec Ideal S800000 .f32 :=
  select mask (Host.gather gather_S50000_S800000x1_S800000_n_0_n_n_0_1_1 tbl idx)
    (broadcastInDim S800000 ![] bcast_S_S800000 (constant (F := Ideal) S_ .f32 0x7FC00000#32))

/-- The fill-mode take. -/
def takeFill (tbl : FVec Ideal S50000 .f32) (x : IVec S800000 32) : FVec Ideal S800000 .f32 :=
  takeOf (inbMask x) tbl (wrapIdx x)

/-- Entry `(e, 0)` of the start-index column is the wrapped word of edge `e`. -/
theorem wrapIdx_apply (x : IVec S800000 32) (e : Fin 800000) (q : Fin 1) : wrapIdx x (ix2 e q) = wrapWord (x (ix1 e)) := by
  unfold wrapIdx
  refine (broadcastInDim_apply (s := S800000) (t := S800000x1) ![0] bcast_S800000_S800000x1_0 _ (ix2 e q) (ix1 e) (fun a => by
    match a with
    | ⟨0, _⟩ => show e.val = if (800000 : Nat) = 1 then 0 else e.val; rw [if_neg (by decide)])).trans ?_
  rfl

/-- A scalar word laid over the `[800000, 1]` column through a `[1]` and a `[1, 1]` array reads the word everywhere. -/
theorem hi_apply (i : S800000x1.Idx) :
    broadcastInDim S800000x1 ![0, 1] bcast_S1x1_S800000x1_0_1
      (broadcastInDim S1x1 ![1] bcast_S1_S1x1_1 (constantI S1 32 49999#32)) i = 49999#32 := by
  refine (broadcastInDim_apply (s := S1x1) (t := S800000x1) ![0, 1] bcast_S1x1_S800000x1_0_1 _ i (ix2 (0 : Fin 1) (0 : Fin 1)) (fun a => by
    match a with
    | ⟨0, _⟩ => show 0 = if (1 : Nat) = 1 then 0 else (i 0).val; rw [if_pos rfl]
    | ⟨1, _⟩ => show 0 = if (1 : Nat) = 1 then 0 else (i 1).val; rw [if_pos rfl])).trans ?_
  exact (broadcastInDim_apply (s := S1) (t := S1x1) ![1] bcast_S1_S1x1_1 _ (ix2 (0 : Fin 1) (0 : Fin 1)) (ix1 (0 : Fin 1)) (fun a => by
    match a with
    | ⟨0, _⟩ => show 0 = if (1 : Nat) = 1 then 0 else 0; rw [if_pos rfl])).trans rfl

/-- On the evident domain the range test passes at every edge. -/
theorem inbMask_eq_one (x : IVec S800000 32) (hx : ∀ e : Fin 800000, InRange (x (ix1 e))) (j : S800000.Idx) :
    inbMask x j = 1#1 := by
  unfold inbMask inbOf
  refine Cert.LibReduceAnd.reduce_andi_of_all _ _ reducesTo_S800000x1_S800000_d1 h_S_ j (fun i => ?_) rfl
  obtain ⟨e, q, rfl⟩ : ∃ (e : Fin 800000) (q : Fin 1), i = ix2 e q := ⟨i 0, i 1, eq_ix2 i⟩
  show IntOp.andi (IntOp.cmpi .sge (wrapIdx x (ix2 e q)) (broadcastInDim S800000x1 ![] bcast_S_S800000x1 (constantI S_ 32 0#32) (ix2 e q)))
      (IntOp.cmpi .sle (wrapIdx x (ix2 e q)) (broadcastInDim S800000x1 ![0, 1] bcast_S1x1_S800000x1_0_1
        (broadcastInDim S1x1 ![1] bcast_S1_S1x1_1 (constantI S1 32 49999#32)) (ix2 e q))) = 1#1
  rw [wrapIdx_apply, hi_apply]
  exact wrapWord_inb (hx e)

/-- THE TAKE on the evident domain: edge `e` reads the table at the row its index word addresses. -/
theorem takeFill_apply (tbl : FVec Ideal S50000 .f32) (x : IVec S800000 32)
    (hx : ∀ e : Fin 800000, InRange (x (ix1 e))) (e : Fin 800000) :
    takeFill tbl x (ix1 e) = tbl (ix1 (rowOf (x (ix1 e)))) := by
  unfold takeFill takeOf
  rw [select_apply, inbMask_eq_one x hx (ix1 e)]
  show Host.gather gather_S50000_S800000x1_S800000_n_0_n_n_0_1_1 tbl (wrapIdx x) (ix1 e) = _
  have he : (ix1 e : S800000.Idx) = Shape.Idx.ofFin e := funext fun a => by match a with | ⟨0, _⟩ => rfl
  have hg := StableHlo.Predicate.gather_take gather_S50000_S800000x1_S800000_n_0_n_n_0_1_1 rfl rfl rfl rfl tbl (wrapIdx x) e (by decide)
  rw [← he] at hg
  refine hg.trans ?_
  have hp : (StableHlo.Predicate.ixP e : S800000x1.Idx) = ix2 e (0 : Fin 1) := funext fun a => by
    match a with
    | ⟨0, _⟩ => rfl
    | ⟨1, _⟩ => rfl
  refine congrArg tbl (funext fun a => Fin.ext ?_)
  match a with
  | ⟨0, _⟩ =>
    show min (wrapIdx x (StableHlo.Predicate.ixP e)).toInt.toNat (50000 - 1) = min (wrapWord (x (ix1 e))).toInt.toNat (50000 - 1)
    rw [hp, wrapIdx_apply]

end Cert.KernelIdeal.Take

end
-- ==== Proof.KTakeRunSrc.lean ====
/-
  The take of the source index words, read off its stretch of host operations piece by piece.

  The stretch is 22 operations: 8 that wrap the index words and lay them out as the column of start indices, 10 that test
  `0 ≤ w ≤ 49999` on that column, and 4 that gather the table at the column and keep the gathered entry under the test.
  Each piece is a function of the valuation it starts from: it writes its own buffers and keeps the table and the column.
  Composed, the stretch writes the fill-mode take of the source index words from the table it finds.
-/
import proofs.«421932_j7739531067736_3_alg».proof.Proof.Gen.KernelIdeal.Frame
import proofs.«421932_j7739531067736_3_alg».proof.Proof.KTake
import Idealize.ShloMosaic.Lib.StableHlo.Run
import Idealize.ShloMosaic.PureOps.Ideal

set_option maxRecDepth 16384

noncomputable section

namespace Cert.KernelIdeal.TakeSrc

open Cert.KernelIdeal Cert.KernelIdeal.Gen Idealize.ShloMosaic Idealize.ShloMosaic.TcCoe Idealize.ShloMosaic.StableHlo
open Idealize.SL.Sem Cert.KernelIdeal.Take

/-- Closes `after ops X b = X b` for a buffer `b` no operation of the literal list `ops` writes. -/
local macro "keeps_buffer" : tactic => `(tactic| (
  dsimp only [hostOps1_1, List.take, List.drop]
  refine StableHlo.after_of_forall_not_mem _ _ (List.forall_iff_forall_mem.mp ?_)
  simp only [List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (X : Valuation τ sig (Elt Ideal))

/-- The stretch as three consecutive pieces. -/
theorem split : (hostOps1_1 (F := Ideal))
    = (hostOps1_1 (F := Ideal)).take 8 ++ (((hostOps1_1 (F := Ideal)).drop 8).take 10 ++ ((hostOps1_1 (F := Ideal)).drop 8).drop 10) := by
  rw [List.take_append_drop, List.take_append_drop]

set_option maxHeartbeats 1000000 in
/-- First piece: the start-index column is the wrapped index words. -/
theorem idx_eq : after ((hostOps1_1 (F := Ideal)).take 8) X (Proc.devRef .tc main_call1_v5) = wrapIdx (X (Proc.devRef .tc main_arg1)) := by
  dsimp only [hostOps1_1, List.take]
  after_results <;> rfl
theorem idx_keeps_tbl : after ((hostOps1_1 (F := Ideal)).take 8) X (Proc.devRef .tc main_v7) = X (Proc.devRef .tc main_v7) := by keeps_buffer

set_option maxHeartbeats 1000000 in
/-- Second piece: the mask is the range test of the column. -/
theorem mask_eq : after (((hostOps1_1 (F := Ideal)).drop 8).take 10) X (Proc.devRef .tc main_call1_v12) = inbOf (X (Proc.devRef .tc main_call1_v5)) := by
  dsimp only [hostOps1_1, List.take, List.drop]
  after_results
  simp only [TRef.toBuf, TRef.ofBuf, cast_eq]
  first | done | rfl
theorem mask_keeps_idx : after (((hostOps1_1 (F := Ideal)).drop 8).take 10) X (Proc.devRef .tc main_call1_v5) = X (Proc.devRef .tc main_call1_v5) := by keeps_buffer
theorem mask_keeps_tbl : after (((hostOps1_1 (F := Ideal)).drop 8).take 10) X (Proc.devRef .tc main_v7) = X (Proc.devRef .tc main_v7) := by keeps_buffer

set_option maxHeartbeats 1000000 in
/-- Third piece: the gather at the column, kept under the mask. -/
theorem out_eq : after (((hostOps1_1 (F := Ideal)).drop 8).drop 10) X (Proc.devRef .tc main_v10)
    = takeOf (X (Proc.devRef .tc main_call1_v12)) (X (Proc.devRef .tc main_v7)) (X (Proc.devRef .tc main_call1_v5)) := by
  dsimp only [hostOps1_1, List.drop]
  after_results <;> rfl

/-- THE STRETCH writes the fill-mode take of the source index words from the table it finds. -/
theorem take_eq : after (hostOps1_1 (F := Ideal)) X (Proc.devRef .tc main_v10)
    = takeFill (X (Proc.devRef .tc main_v7)) (X (Proc.devRef .tc main_arg1)) := by
  rw [split, StableHlo.after_append, StableHlo.after_append, out_eq, mask_eq, mask_keeps_tbl, mask_keeps_idx, idx_eq, idx_keeps_tbl]
  rfl

end Cert.KernelIdeal.TakeSrc

end
-- ==== Proof.KTakeRunDst.lean ====
/-
  The take of the destination index words, read off its stretch of host operations piece by piece.

  The stretch is 22 operations: 8 that wrap the index words and lay them out as the column of start indices, 10 that test
  `0 ≤ w ≤ 49999` on that column, and 4 that gather the table at the column and keep the gathered entry under the test.
  Each piece is a function of the valuation it starts from: it writes its own buffers and keeps the table and the column.
  Composed, the stretch writes the fill-mode take of the destination index words from the table it finds.
-/
import proofs.«421932_j7739531067736_3_alg».proof.Proof.Gen.KernelIdeal.Frame
import proofs.«421932_j7739531067736_3_alg».proof.Proof.KTake
import Idealize.ShloMosaic.Lib.StableHlo.Run
import Idealize.ShloMosaic.PureOps.Ideal

set_option maxRecDepth 16384

noncomputable section

namespace Cert.KernelIdeal.TakeDst

open Cert.KernelIdeal Cert.KernelIdeal.Gen Idealize.ShloMosaic Idealize.ShloMosaic.TcCoe Idealize.ShloMosaic.StableHlo
open Idealize.SL.Sem Cert.KernelIdeal.Take

/-- Closes `after ops X b = X b` for a buffer `b` no operation of the literal list `ops` writes. -/
local macro "keeps_buffer" : tactic => `(tactic| (
  dsimp only [hostOps1_2, List.take, List.drop]
  refine StableHlo.after_of_forall_not_mem _ _ (List.forall_iff_forall_mem.mp ?_)
  simp only [List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (X : Valuation τ sig (Elt Ideal))

/-- The stretch as three consecutive pieces. -/
theorem split : (hostOps1_2 (F := Ideal))
    = (hostOps1_2 (F := Ideal)).take 8 ++ (((hostOps1_2 (F := Ideal)).drop 8).take 10 ++ ((hostOps1_2 (F := Ideal)).drop 8).drop 10) := by
  rw [List.take_append_drop, List.take_append_drop]

set_option maxHeartbeats 1000000 in
/-- First piece: the start-index column is the wrapped index words. -/
theorem idx_eq : after ((hostOps1_2 (F := Ideal)).take 8) X (Proc.devRef .tc main_call2_v5) = wrapIdx (X (Proc.devRef .tc main_arg2)) := by
  dsimp only [hostOps1_2, List.take]
  after_results <;> rfl
theorem idx_keeps_tbl : after ((hostOps1_2 (F := Ideal)).take 8) X (Proc.devRef .tc main_v9) = X (Proc.devRef .tc main_v9) := by keeps_buffer

set_option maxHeartbeats 1000000 in
/-- Second piece: the mask is the range test of the column. -/
theorem mask_eq : after (((hostOps1_2 (F := Ideal)).drop 8).take 10) X (Proc.devRef .tc main_call2_v12) = inbOf (X (Proc.devRef .tc main_call2_v5)) := by
  dsimp only [hostOps1_2, List.take, List.drop]
  after_results
  simp only [TRef.toBuf, TRef.ofBuf, cast_eq]
  first | done | rfl
theorem mask_keeps_idx : after (((hostOps1_2 (F := Ideal)).drop 8).take 10) X (Proc.devRef .tc main_call2_v5) = X (Proc.devRef .tc main_call2_v5) := by keeps_buffer
theorem mask_keeps_tbl : after (((hostOps1_2 (F := Ideal)).drop 8).take 10) X (Proc.devRef .tc main_v9) = X (Proc.devRef .tc main_v9) := by keeps_buffer

set_option maxHeartbeats 1000000 in
/-- Third piece: the gather at the column, kept under the mask. -/
theorem out_eq : after (((hostOps1_2 (F := Ideal)).drop 8).drop 10) X (Proc.devRef .tc main_v11)
    = takeOf (X (Proc.devRef .tc main_call2_v12)) (X (Proc.devRef .tc main_v9)) (X (Proc.devRef .tc main_call2_v5)) := by
  dsimp only [hostOps1_2, List.drop]
  after_results <;> rfl

/-- THE STRETCH writes the fill-mode take of the destination index words from the table it finds. -/
theorem take_eq : after (hostOps1_2 (F := Ideal)) X (Proc.devRef .tc main_v11)
    = takeFill (X (Proc.devRef .tc main_v9)) (X (Proc.devRef .tc main_arg2)) := by
  rw [split, StableHlo.after_append, StableHlo.after_append, out_eq, mask_eq, mask_keeps_tbl, mask_keeps_idx, idx_eq, idx_keeps_tbl]
  rfl

end Cert.KernelIdeal.TakeDst

end
-- ==== Proof.KTailRun.lean ====
/-
  The host operations after the region, read stretch by stretch.

  After the region the program cuts the two rows of the `[2, 51200]` projection table to their first 50000 entries and
  flattens each to a rank-1 table (first stretch); takes the source index words from the first table and the
  destination index words from the second, each a fill-mode take (second and third stretch); and adds the two takes, adds
  the bias laid over all edges, and reshapes `[800000]` to `[800000, 1]` (fourth stretch). Each stretch is a function of the
  valuation it starts from: it writes its own buffers and keeps every other. The valuation the stretches start from is
  the one the region leaves: the table at what the run computed, every argument array as launched.
-/
import proofs.«421932_j7739531067736_3_alg».proof.Proof.Gen.KernelIdeal.Frame
import proofs.«421932_j7739531067736_3_alg».proof.Proof.KTake
import proofs.«421932_j7739531067736_3_alg».proof.Proof.KTakeRunSrc
import proofs.«421932_j7739531067736_3_alg».proof.Proof.KTakeRunDst
import Idealize.ShloMosaic.Lib.StableHlo.Run
import Idealize.ShloMosaic.Lib.Pipeline.Value
import Idealize.ShloMosaic.PureOps.Ideal

set_option maxRecDepth 16384

noncomputable section

namespace Cert.KernelIdeal.Tail

open Cert.KernelIdeal Cert.KernelIdeal.Gen Idealize.ShloMosaic Idealize.ShloMosaic.TcCoe Idealize.ShloMosaic.StableHlo
open Idealize.SL.Sem Cert.KernelIdeal.Take

/-- Row `r` of the projection table, cut to the 50000 nodes, as a rank-1 table. -/
def row0 (P : FVec Ideal S2x51200 .f32) : FVec Ideal S50000 .f32 :=
  shapeCast S50000 (extractStridedSlice S1x50000 ![0, 0] P slices_S2x51200_S1x50000_0_0) shapeCasts_S1x50000_S50000
def row1 (P : FVec Ideal S2x51200 .f32) : FVec Ideal S50000 .f32 :=
  shapeCast S50000 (extractStridedSlice S1x50000 ![1, 0] P slices_S2x51200_S1x50000_1_0) shapeCasts_S1x50000_S50000

/-- The two takes added, the bias added at every edge, as an `[800000, 1]` column. -/
def finish (a b : FVec Ideal S800000 .f32) (bias : FVec Ideal S1 .f32) : FVec Ideal S800000x1 .f32 :=
  shapeCast S800000x1 (addf (addf a b) (broadcastInDim S800000 ![] bcast_S_S800000 (shapeCast S_ bias shapeCasts_S1_S_)))
    shapeCasts_S800000_S800000x1

/-- Closes `after ops X b = X b` for a buffer `b` no operation of the literal list `ops` writes. -/
local macro "keeps_buffer" : tactic => `(tactic| (
  dsimp only [hostOps1, hostOps1_1, hostOps1_2, hostOps1_3, List.take, List.drop]
  refine StableHlo.after_of_forall_not_mem _ _ (List.forall_iff_forall_mem.mp ?_)
  simp only [hostOps1, hostOps1_1, hostOps1_2, hostOps1_3, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

variable (X : Valuation τ sig (Elt Ideal))

/-! ## First stretch: the two rank-1 tables -/

theorem s1_v7 : after (hostOps1 (F := Ideal)) X (Proc.devRef .tc main_v7) = row0 (X (Proc.devRef .tc main_v5)) := by
  after_results <;> rfl
theorem s1_v9 : after (hostOps1 (F := Ideal)) X (Proc.devRef .tc main_v9) = row1 (X (Proc.devRef .tc main_v5)) := by
  after_results <;> rfl
theorem s1_arg1 : after (hostOps1 (F := Ideal)) X (Proc.devRef .tc main_arg1) = X (Proc.devRef .tc main_arg1) := by keeps_buffer
theorem s1_arg2 : after (hostOps1 (F := Ideal)) X (Proc.devRef .tc main_arg2) = X (Proc.devRef .tc main_arg2) := by keeps_buffer
theorem s1_arg4 : after (hostOps1 (F := Ideal)) X (Proc.devRef .tc main_arg4) = X (Proc.devRef .tc main_arg4) := by keeps_buffer

/-! ## Second stretch: the take of the source index words (its result: Proof/KTakeRunSrc.lean); what it keeps -/

theorem s2_v9 : after (hostOps1_1 (F := Ideal)) X (Proc.devRef .tc main_v9) = X (Proc.devRef .tc main_v9) := by keeps_buffer
theorem s2_arg2 : after (hostOps1_1 (F := Ideal)) X (Proc.devRef .tc main_arg2) = X (Proc.devRef .tc main_arg2) := by keeps_buffer
theorem s2_arg4 : after (hostOps1_1 (F := Ideal)) X (Proc.devRef .tc main_arg4) = X (Proc.devRef .tc main_arg4) := by keeps_buffer

/-! ## Third stretch: the take of the destination index words (its result: Proof/KTakeRunDst.lean); what it keeps -/

theorem s3_v10 : after (hostOps1_2 (F := Ideal)) X (Proc.devRef .tc main_v10) = X (Proc.devRef .tc main_v10) := by keeps_buffer
theorem s3_arg4 : after (hostOps1_2 (F := Ideal)) X (Proc.devRef .tc main_arg4) = X (Proc.devRef .tc main_arg4) := by keeps_buffer

/-! ## Fourth stretch: the sum, the bias, the column -/

theorem s4_v16 : after (hostOps1_3 (F := Ideal)) X (Proc.devRef .tc main_v16)
    = finish (X (Proc.devRef .tc main_v10)) (X (Proc.devRef .tc main_v11)) (X (Proc.devRef .tc main_arg4)) := by
  after_results <;> rfl

/-! ## The four stretches from the valuation the region leaves -/

variable (m : (ℓ : Loc nD τ sig) → Buf (Elt Ideal) ℓ)

/-- The result of the program, as the stretches compute it from the projection table after the run and the argument
    arrays as launched. -/
theorem tail_eq (c : Dev nD) :
    Pipeline.afterTail₀ cfgs (dats m) 0 (V0 m) [hostOps1, hostOps1_1, hostOps1_2, hostOps1_3] c main_v16
      = finish
          (takeFill (row0 ((dats m 0 c).arrAt 2 cfg0.N)) (m ((c : Thread nD τ).loc main_arg1)))
          (takeFill (row1 ((dats m 0 c).arrAt 2 cfg0.N)) (m ((c : Thread nD τ).loc main_arg2)))
          (m ((c : Thread nD τ).loc main_arg4)) := by
  unfold Pipeline.afterTail₀
  simp only [List.flatten_cons, List.flatten_nil, List.append_nil, StableHlo.after_append]
  have h5 : Pipeline.withArrays (cfgs 0).spec c (V0 m c) (fun w => (dats m 0 c).arrAt w (cfgs 0).N) (Proc.devRef .tc main_v5)
      = (dats m 0 c).arrAt 2 cfg0.N :=
    Pipeline.withArrays_arr spec0 launch0.win.arr_inj c (V0 m c) (fun w => (dats m 0 c).arrAt w cfg0.N) 2
  have h1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays (cfgs 0).spec c (V0 m c) (fun w => (dats m 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  have h4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans (V_main_arg4 m c)
  rw [s4_v16, Cert.KernelIdeal.TakeDst.take_eq, s3_v10, s3_arg4, Cert.KernelIdeal.TakeSrc.take_eq, s2_v9, s2_arg2, s2_arg4, s1_v7, s1_v9, s1_arg1, s1_arg2, s1_arg4, h5, h1, h2, h4]

end Cert.KernelIdeal.Tail

end
-- ==== Proof.KBlocks.lean ====
/-
  The projection table the kernel's one region leaves.

  The region runs over 4 grid points; at point `t` the body multiplies the whole `[2, 128]` block of transposed weights
  with block `t` (12800 rows) of the padded node table, contracting the 128 features of both, into a zero accumulator,
  and stores the `[2, 12800]` product as block `(0, t)` of the `[2, 51200]` table. A change of float format is the identity
  on the extended reals, so entry `(r, q)` of the product is `Σ_k wT[r, k] · hp[12800 t + q, k]`. The four column blocks tile
  the table, so after the run the table is ONE function of the two arrays the region found:
      proj wT hp (r, n) = Σ_k wT[r, k] · hp[n, k].
-/
import proofs.«421932_j7739531067736_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Proj

open Cert.KernelIdeal Cert.KernelIdeal.Gen Idealize.ShloMosaic Idealize.ShloMosaic.TcCoe Idealize.ShloMosaic.ValueIdx
open Idealize.SL.Sem

/-- Row `r` of the transposed weights against row `n` of the padded node table, over the 128 features. -/
def proj (wT : FVec Ideal S2x128 .f32) (hp : FVec Ideal S51200x128 .f32) : FVec Ideal S2x51200 .f32 :=
  fun j => ∑ k : Fin 128, wT (ix2 (⟨(j 0).val, (j 0).isLt⟩ : Fin 2) k) * hp (ix2 (⟨(j 1).val, (j 1).isLt⟩ : Fin 51200) k)

theorem proj_apply (wT : FVec Ideal S2x128 .f32) (hp : FVec Ideal S51200x128 .f32) (r : Fin 2) (n : Fin 51200) :
    proj wT hp (ix2 r n) = ∑ k : Fin 128, wT (ix2 r k) * hp (ix2 n k) := rfl

/-! ## The body's product at an index -/

theorem lhs_axis0 (i : S2x12800.Idx) (q : dot_S2x128_S12800x128_S2x12800_1_1_0_0_n_n.contr.Idx) :
    (dot_S2x128_S12800x128_S2x12800_1_1_0_0_n_n.lhsIdx i q 0).val = (i 0).val := by
  unfold DotDims.lhsIdx
  rw [dif_neg (show ¬(0 : Fin S2x128.rank) ∈ dot_S2x128_S12800x128_S2x12800_1_1_0_0_n_n.lhsBatch by decide), dif_pos (show (0 : Fin S2x128.rank) ∈ dot_S2x128_S12800x128_S2x12800_1_1_0_0_n_n.lhsNonContracting by decide)]
  rfl
theorem lhs_axis1 (i : S2x12800.Idx) (q : dot_S2x128_S12800x128_S2x12800_1_1_0_0_n_n.contr.Idx) :
    (dot_S2x128_S12800x128_S2x12800_1_1_0_0_n_n.lhsIdx i q 1).val = (q ⟨0, by decide⟩).val :=
  dot_S2x128_S12800x128_S2x12800_1_1_0_0_n_n.lhsIdx_val_of_single rfl i q
theorem rhs_axis0 (i : S2x12800.Idx) (q : dot_S2x128_S12800x128_S2x12800_1_1_0_0_n_n.contr.Idx) :
    (dot_S2x128_S12800x128_S2x12800_1_1_0_0_n_n.rhsIdx i q 0).val = (i 1).val := by
  unfold DotDims.rhsIdx
  rw [dif_neg (show ¬(0 : Fin S12800x128.rank) ∈ dot_S2x128_S12800x128_S2x12800_1_1_0_0_n_n.rhsBatch by decide), dif_pos (show (0 : Fin S12800x128.rank) ∈ dot_S2x128_S12800x128_S2x12800_1_1_0_0_n_n.rhsNonContracting by decide)]
  rfl
theorem rhs_axis1 (i : S2x12800.Idx) (q : dot_S2x128_S12800x128_S2x12800_1_1_0_0_n_n.contr.Idx) :
    (dot_S2x128_S12800x128_S2x12800_1_1_0_0_n_n.rhsIdx i q 1).val = (q ⟨0, by decide⟩).val :=
  dot_S2x128_S12800x128_S2x12800_1_1_0_0_n_n.rhsIdx_val_of_single rfl i q

/-- Entry `j = (r, q)` of the body's product: the weights' row `r` against the block's row `q`. -/
theorem pay_apply (x0 : Vec Ideal S12800x128 .f32) (x1 : Vec Ideal S2x128 .f32) (j : S2x12800.Idx) :
    k0_pay1 (F := Ideal) x0 x1 j
      = ∑ k : Fin 128, x1 (ix2 (⟨(j 0).val, (j 0).isLt⟩ : Fin 2) k) * x0 (ix2 (⟨(j 1).val, (j 1).isLt⟩ : Fin 12800) k) := by
  unfold k0_pay1
  refine (Ideal.matmul_constant_zero_apply dot_S2x128_S12800x128_S2x12800_1_1_0_0_n_n none _ _ j).trans ?_
  rw [← Equiv.sum_comp (ValueIdx.contrEquiv1 dot_S2x128_S12800x128_S2x12800_1_1_0_0_n_n 128 rfl rfl).symm]
  refine Finset.sum_congr rfl fun k _ => ?_
  have hk := ValueIdx.contrEquiv1_symm_val dot_S2x128_S12800x128_S2x12800_1_1_0_0_n_n 128 rfl rfl k
  have el : dot_S2x128_S12800x128_S2x12800_1_1_0_0_n_n.lhsIdx j ((ValueIdx.contrEquiv1 dot_S2x128_S12800x128_S2x12800_1_1_0_0_n_n 128 rfl rfl).symm k)
      = ix2 (⟨(j 0).val, (j 0).isLt⟩ : Fin 2) k := funext fun a => Fin.ext (by
    match a with
    | ⟨0, _⟩ => exact lhs_axis0 _ _
    | ⟨1, _⟩ => exact (lhs_axis1 _ _).trans hk)
  have er : dot_S2x128_S12800x128_S2x12800_1_1_0_0_n_n.rhsIdx j ((ValueIdx.contrEquiv1 dot_S2x128_S12800x128_S2x12800_1_1_0_0_n_n 128 rfl rfl).symm k)
      = ix2 (⟨(j 1).val, (j 1).isLt⟩ : Fin 12800) k := funext fun a => Fin.ext (by
    match a with
    | ⟨0, _⟩ => exact rhs_axis0 _ _
    | ⟨1, _⟩ => exact (rhs_axis1 _ _).trans hk)
  rw [el, er, shapeCast_self, shapeCast_self]
  rfl

/-! ## What a point writes back, and the table after the run -/

variable (m : (ℓ : Loc nD τ sig) → Buf (Elt Ideal) ℓ)

theorem off_zero : (![0, 0] : Fin 2 → Nat) = fun _ => 0 := funext fun a => by fin_cases a <;> rfl

/-- The printed index maps over the 4 points: the node table's block row is the output's block column; every other
    block index is 0. -/
theorem idx_facts : ∀ t : Fin cfg0.N, win0_0.index t (0 : Fin 2) = win0_2.index t (1 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) ≤ 3 :=
  (by decide +kernel : ∀ t : Fin grid0.N, _)

/-- Each of the 4 column blocks is some point's. -/
theorem idx_onto : ∀ q : Fin 4, ∃ t : Fin cfg0.N, win0_2.index t = ![0, q.val] :=
  (by decide +kernel : ∀ q : Fin 4, ∃ t : Fin grid0.N, win0_2.index t = ![0, q.val])

/-- WHAT POINT `t` WRITES BACK is block `t` of `proj` of the two arrays as the region finds them. -/
theorem flushed_eq (c : Dev nD) (t : Fin cfg0.N) :
    (dats m 0 c).flushed 2 t = ((cfg0.win 2).blk t).view.read (Elt Ideal) (proj (V m c main_v3) (V m c main_v4)) := by
  show (cfg0.win 2).cut (grid0.coords t) ((dats m 0 c).after 2 t) = _
  rw [after0_2]
  unfold out0_2
  rw [View.canon_unit_zero off_zero]
  simp only [View.ld_unit_zero (S := S12800x128) off_zero, View.ld_unit_zero (S := S2x128) off_zero]
  obtain ⟨e0, e1, e2, e3, e4, e5⟩ := idx_facts t
  funext j
  show k0_pay1 (F := Ideal) (iblk m c 0 t) (iblk m c 1 t) j = proj (V m c main_v3) (V m c main_v4) (((cfg0.win 2).blk t).view.emb j)
  refine (pay_apply (iblk m c 0 t) (iblk m c 1 t) j).trans ?_
  unfold proj
  refine Finset.sum_congr rfl fun k _ => ?_
  have hw : iblk m c 1 t (ix2 (⟨(j 0).val, (j 0).isLt⟩ : Fin 2) k)
      = V m c main_v3 (ix2 (⟨((((cfg0.win 2).blk t).view.emb j) 0).val, ((((cfg0.win 2).blk t).view.emb j) 0).isLt⟩ : Fin 2) k) := by
    show V m c main_v3 (((cfg0.win 1).blk t).view.emb (ix2 (⟨(j 0).val, (j 0).isLt⟩ : Fin 2) k)) = _
    refine congrArg (V m c main_v3) (funext fun a => Fin.ext ?_)
    match a with
    | ⟨0, _⟩ => show win0_1.index t (0 : Fin 2) * 2 + 1 * (j 0).val = win0_2.index t (0 : Fin 2) * 2 + 1 * (j 0).val; omega
    | ⟨1, _⟩ => show win0_1.index t (1 : Fin 2) * 128 + 1 * k.val = k.val; omega
  have hh : iblk m c 0 t (ix2 (⟨(j 1).val, (j 1).isLt⟩ : Fin 12800) k)
      = V m c main_v4 (ix2 (⟨((((cfg0.win 2).blk t).view.emb j) 1).val, ((((cfg0.win 2).blk t).view.emb j) 1).isLt⟩ : Fin 51200) k) := by
    show V m c main_v4 (((cfg0.win 0).blk t).view.emb (ix2 (⟨(j 1).val, (j 1).isLt⟩ : Fin 12800) k)) = _
    refine congrArg (V m c main_v4) (funext fun a => Fin.ext ?_)
    match a with
    | ⟨0, _⟩ => show win0_0.index t (0 : Fin 2) * 12800 + 1 * (j 1).val = win0_2.index t (1 : Fin 2) * 12800 + 1 * (j 1).val; omega
    | ⟨1, _⟩ => show win0_0.index t (1 : Fin 2) * 128 + 1 * k.val = k.val; omega
  rw [hw, hh]

/-- An index of the table is in point `t`'s block iff each coordinate is in the block's range on its axis. -/
theorem mem_blk (t : Fin cfg0.N) (i : S2x51200.Idx) :
    i ∈ ((cfg0.win 2).blk t).view.set ↔ ∀ a : Fin 2, win0_2.index t a * S2x12800.size a ≤ (i a).val ∧ (i a).val < win0_2.index t a * S2x12800.size a + S2x12800.size a := by
  show i ∈ ((View.whole main_v5).slice (win0_2.rect t)).set ↔ _
  rw [View.set_slice_whole, Rect.mem_set_unit]
  exact Iff.rfl

/-- Every index of the table is in the block of the point whose column block holds it. -/
theorem cover (i : S2x51200.Idx) : ∃ t : Fin cfg0.N, (cfg0.win 2).flush t = true ∧ i ∈ ((cfg0.win 2).blk t).view.set := by
  have hi0 : (i 0).val < 2 := (i 0).isLt
  have hi1 : (i 1).val < 51200 := (i 1).isLt
  obtain ⟨t, ht⟩ := idx_onto ⟨(i 1).val / 12800, by omega⟩
  have q0 : win0_2.index t (0 : Fin 2) = 0 := congrFun ht 0
  have q1 : win0_2.index t (1 : Fin 2) = (i 1).val / 12800 := congrFun ht 1
  refine ⟨t, flush0_2 t, ?_⟩
  rw [mem_blk]
  intro a
  match a with
  | ⟨0, _⟩ => show win0_2.index t (0 : Fin 2) * 2 ≤ (i 0).val ∧ (i 0).val < win0_2.index t (0 : Fin 2) * 2 + 2; omega
  | ⟨1, _⟩ => show win0_2.index t (1 : Fin 2) * 12800 ≤ (i 1).val ∧ (i 1).val < win0_2.index t (1 : Fin 2) * 12800 + 12800; omega

/-- THE TABLE after the run. -/
theorem table_eq (c : Dev nD) : (dats m 0 c).arrAt 2 cfg0.N = proj (V m c main_v3) (V m c main_v4) :=
  (dats m 0 c).arrAt_eq_of_cover 2 (proj (V m c main_v3) (V m c main_v4)) (fun t _ => flushed_eq m c t) cover

end Cert.KernelIdeal.Proj

end
-- ==== Proof.KPrefix.lean ====
/-
  What the region finds in the two arrays it stages, from the host operations before it.

  The weights: the column `W : [256, 1]` is cut into its two halves, the halves are laid side by side as `[128, 2]` and
  transposed, so the region's `[2, 128]` array holds `W[128 r + k, 0]` at `(r, k)`. The node table: `h : [50000, 128]` is
  padded below with 1200 rows to `[51200, 128]`; at a row `n < 50000` the padded table is `h` itself (the padding value
  is met only on the rows no edge can address).
-/
import proofs.«421932_j7739531067736_3_alg».proof.Proof.Gen.KernelIdeal.Frame
import Idealize.ShloMosaic.Lib.StableHlo.Run
import Idealize.ShloMosaic.Lib.Pipeline.Value
import Idealize.ShloMosaic.Lib.ValueIdx
import Idealize.ShloMosaic.Lib.KernelVsHost
import Idealize.ShloMosaic.PureOps.Ideal

set_option maxRecDepth 16384

noncomputable section

namespace Cert.KernelIdeal.Prefix

open Cert.KernelIdeal Cert.KernelIdeal.Gen Idealize.ShloMosaic Idealize.ShloMosaic.TcCoe Idealize.ShloMosaic.ValueIdx
open Idealize.ShloMosaic.StableHlo Idealize.SL.Sem

variable (m : (ℓ : Loc nD τ sig) → Buf (Elt Ideal) ℓ)

/-- The transposed weights as the operations before the region compute them from `W`. -/
theorem wT_eq (c : Dev nD) : (V m c main_v3 : S2x128.Idx → EReal)
    = transpose S2x128 [1, 0] (concatenate S128x2 1
        [⟨S128x1, extractStridedSlice S128x1 ![0, 0] (m ((c : Thread nD τ).loc main_arg3)) slices_S256x1_S128x1_0_0⟩,
         ⟨S128x1, extractStridedSlice S128x1 ![128, 0] (m ((c : Thread nD τ).loc main_arg3)) slices_S256x1_S128x1_128_0⟩]
        concatenates_S128x1_S128x1_S128x2_d1) transposes_S128x2_S2x128_1_0 := by
  dsimp only [V, V0]
  simp only [hostOps0, hostOps0_1, List.flatten_cons, List.flatten_nil, List.append_nil, List.cons_append, List.nil_append]
  after_results <;> rfl

/-- Entry `(r, k)` of the transposed weights is `W[128 r + k, 0]`. -/
theorem wT_apply (c : Dev nD) (r : Fin 2) (k : Fin 128) :
    V m c main_v3 (ix2 r k)
      = m ((c : Thread nD τ).loc main_arg3) (ix2 (⟨128 * r.val + k.val, by have := r.isLt; have := k.isLt; omega⟩ : Fin 256) (0 : Fin 1)) := by
  have e := congrFun (wT_eq m c) (ix2 r k)
  refine e.trans ?_
  -- the transpose reads the `[128, 2]` array at `(k, r)`
  refine (transpose_apply [1, 0] _ transposes_S128x2_S2x128_1_0 (ix2 r k) (ix2 k r) (fun b => by
    match b with
    | ⟨0, _⟩ => rfl
    | ⟨1, _⟩ => rfl)).trans ?_
  -- column `r` of the two halves side by side is half `r`
  match r with
  | ⟨0, _⟩ =>
    refine (concatenate_pair_apply_left (t := S128x2) (s₁ := S128x1) (s₂ := S128x1) (1 : Fin 2) _ _ concatenates_S128x1_S128x1_S128x2_d1 (ix2 k (0 : Fin 2)) rfl
      (ix2 k (0 : Fin 1)) (fun b => by
        match b with
        | ⟨0, _⟩ => rfl
        | ⟨1, _⟩ => rfl)).trans ?_
    exact extractStridedSlice_apply (s := S256x1) (t := S128x1) ![0, 0] _ slices_S256x1_S128x1_0_0 (ix2 k (0 : Fin 1)) _ (fun a => by
      match a with
      | ⟨0, _⟩ => show 128 * 0 + k.val = 0 + k.val; omega
      | ⟨1, _⟩ => rfl)
  | ⟨1, _⟩ =>
    refine (concatenate_pair_apply_right (t := S128x2) (s₁ := S128x1) (s₂ := S128x1) (1 : Fin 2) _ _ concatenates_S128x1_S128x1_S128x2_d1 (ix2 k (1 : Fin 2)) rfl rfl
      (ix2 k (0 : Fin 1)) (fun b hb => by
        match b with
        | ⟨0, _⟩ => rfl
        | ⟨1, _⟩ => exact absurd rfl hb) rfl).trans ?_
    exact extractStridedSlice_apply (s := S256x1) (t := S128x1) ![128, 0] _ slices_S256x1_S128x1_128_0 (ix2 k (0 : Fin 1)) _ (fun a => by
      match a with
      | ⟨0, _⟩ => show 128 * 1 + k.val = 128 + k.val; omega
      | ⟨1, _⟩ => rfl)

/-- The padded node table as the operations before the region compute it from `h`. -/
theorem hp_eq (c : Dev nD) : (V m c main_v4 : S51200x128.Idx → EReal)
    = pad S51200x128 ![0, 0] ![1200, 0] ![0, 0] (m ((c : Thread nD τ).loc main_arg0))
        (sitofp (F := Ideal) .f32 (constantI S_ 32 0#32)) pads_S50000x128_S51200x128_012000_000 h_S_ := by
  dsimp only [V, V0]
  simp only [hostOps0, hostOps0_1, List.flatten_cons, List.flatten_nil, List.append_nil, List.cons_append, List.nil_append]
  after_results <;> rfl

/-- At a row of the node table the padded table is the node table. -/
theorem hp_apply (c : Dev nD) (n : Fin 50000) (k : Fin 128) :
    V m c main_v4 (ix2 (⟨n.val, by have := n.isLt; omega⟩ : Fin 51200) k) = m ((c : Thread nD τ).loc main_arg0) (ix2 n k) := by
  have e := congrFun (hp_eq m c) (ix2 (⟨n.val, by have := n.isLt; omega⟩ : Fin 51200) k)
  refine e.trans ?_
  exact pad_apply_of_inside (s := S50000x128) (t := S51200x128) ![0, 0] ![1200, 0] ![0, 0] _ _ pads_S50000x128_S51200x128_012000_000 h_S_
    (ix2 (⟨n.val, by have := n.isLt; omega⟩ : Fin 51200) k) (ix2 n k) (fun a => by
    match a with
    | ⟨0, _⟩ => show n.val = 0 + n.val * (0 + 1); omega
    | ⟨1, _⟩ => show k.val = 0 + k.val * (0 + 1); omega)

end Cert.KernelIdeal.Prefix

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.KValue.lean ====
/-
  The kernel program's result is the edge score, on the evident domain of the index words.

  The result column at edge `e` is the source take plus the destination take plus the bias. On the evident domain the
  source take reads row 0 of the projection table at the row `n` the source word addresses, which is
  `Σ_k wT[0, k] · hp[n, k] = Σ_k W[k, 0] · h[n, k]`; the destination take reads row 1 at the row the destination word
  addresses, `Σ_k W[128 + k, 0] · h[n', k]`. These are the score's two sums with the factors of each product exchanged:
  the product of extended reals is commutative, and nothing else is used (no finiteness of the floats).
-/
import proofs.«421932_j7739531067736_3_alg».proof.Proof.KTailRun
import proofs.«421932_j7739531067736_3_alg».proof.Proof.KBlocks
import proofs.«421932_j7739531067736_3_alg».proof.Proof.KPrefix
import proofs.«421932_j7739531067736_3_alg».proof.Proof.KTake
import proofs.«421932_j7739531067736_3_alg».proof.Proof.Spec
import proofs.«421932_j7739531067736_3_alg».proof.Proof.LibColumnForms
import Idealize.ShloMosaic.Lib.Pipeline.Value
import Idealize.ShloMosaic.Lib.ValueIdx

set_option maxRecDepth 16384

noncomputable section

open scoped BigOperators

namespace Cert.KernelIdeal.Value

open Cert.KernelIdeal Cert.KernelIdeal.Gen Idealize.ShloMosaic Idealize.ShloMosaic.TcCoe Idealize.ShloMosaic.ValueIdx
open Idealize.SL.Sem Cert.KernelIdeal.Take Cert.KernelIdeal.Tail Cert.KernelIdeal.Proj Cert.EdgeScore

/-! ## The layout steps at an index -/

/-- Row 0 of the table as a rank-1 table: entry `n` is the table's entry `(0, n)`. -/
theorem row0_apply (P : FVec Ideal S2x51200 .f32) (n : Fin 50000) :
    row0 P (ix1 n) = P (ix2 (0 : Fin 2) (⟨n.val, by have := n.isLt; omega⟩ : Fin 51200)) := by
  unfold row0
  refine (shapeCast_apply (s := S1x50000) (t := S50000) _ shapeCasts_S1x50000_S50000 (ix1 n) (ix2 (0 : Fin 1) n) (by
    rw [Shape.rowMajor_val_two, Shape.rowMajor_val_one]
    show 0 * 50000 + n.val = n.val
    omega)).trans ?_
  exact extractStridedSlice_apply (s := S2x51200) (t := S1x50000) ![0, 0] P slices_S2x51200_S1x50000_0_0 (ix2 (0 : Fin 1) n) _ (fun a => by
    match a with
    | ⟨0, _⟩ => rfl
    | ⟨1, _⟩ => show n.val = 0 + n.val; omega)

/-- Row 1 likewise. -/
theorem row1_apply (P : FVec Ideal S2x51200 .f32) (n : Fin 50000) :
    row1 P (ix1 n) = P (ix2 (1 : Fin 2) (⟨n.val, by have := n.isLt; omega⟩ : Fin 51200)) := by
  unfold row1
  refine (shapeCast_apply (s := S1x50000) (t := S50000) _ shapeCasts_S1x50000_S50000 (ix1 n) (ix2 (0 : Fin 1) n) (by
    rw [Shape.rowMajor_val_two, Shape.rowMajor_val_one]
    show 0 * 50000 + n.val = n.val
    omega)).trans ?_
  exact extractStridedSlice_apply (s := S2x51200) (t := S1x50000) ![1, 0] P slices_S2x51200_S1x50000_1_0 (ix2 (0 : Fin 1) n) _ (fun a => by
    match a with
    | ⟨0, _⟩ => rfl
    | ⟨1, _⟩ => show n.val = 0 + n.val; omega)

/-- The bias, flattened to a scalar and laid over all edges, is the bias at every edge. -/
theorem bias_apply (bias : FVec Ideal S1 .f32) (e : Fin 800000) :
    broadcastInDim S800000 ![] bcast_S_S800000 (shapeCast S_ bias shapeCasts_S1_S_) (ix1 e) = bias (ix1 (0 : Fin 1)) := by
  refine (broadcastInDim_apply (s := S_) (t := S800000) ![] bcast_S_S800000 _ (ix1 e) ix0 (fun a => a.elim0)).trans ?_
  exact shapeCast_apply (s := S1) (t := S_) bias shapeCasts_S1_S_ ix0 (ix1 (0 : Fin 1)) (by
    have h1 : (S1.rowMajor (ix1 (0 : Fin 1))).val < 1 := (S1.rowMajor (ix1 (0 : Fin 1))).isLt
    have h2 : (S_.rowMajor ix0).val < 1 := (S_.rowMajor ix0).isLt
    omega)

/-- The result column at `(e, q)`: the two takes at edge `e` and the bias. -/
theorem finish_apply (a b : FVec Ideal S800000 .f32) (bias : FVec Ideal S1 .f32) (e : Fin 800000) (q : Fin 1) :
    finish a b bias (ix2 e q) = a (ix1 e) + b (ix1 e) + bias (ix1 (0 : Fin 1)) := by
  unfold finish
  refine (Cert.LibColumnForms.shapeCast_a_a1_apply (a := 800000) _ shapeCasts_S800000_S800000x1 e q).trans ?_
  rw [addf_apply, addf_apply, bias_apply]

/-! ## The two sums -/

variable (m : (ℓ : Loc nD τ sig) → Buf (Elt Ideal) ℓ)

/-- The argument arrays and the table after the run, each at its literal type (the arithmetic below is stated over
    these). -/
abbrev hArr (c : Dev nD) : FVec Ideal S50000x128 .f32 := m ((c : Thread nD τ).loc main_arg0)
abbrev sArr (c : Dev nD) : IVec S800000 32 := m ((c : Thread nD τ).loc main_arg1)
abbrev dArr (c : Dev nD) : IVec S800000 32 := m ((c : Thread nD τ).loc main_arg2)
abbrev wArr (c : Dev nD) : FVec Ideal S256x1 .f32 := m ((c : Thread nD τ).loc main_arg3)
abbrev bArr (c : Dev nD) : FVec Ideal S1 .f32 := m ((c : Thread nD τ).loc main_arg4)
abbrev tblArr (c : Dev nD) : FVec Ideal S2x51200 .f32 := (dats m 0 c).arrAt 2 cfg0.N

/-- The region finds the transposed weights and the padded node table at these entries. -/
theorem wT_at (c : Dev nD) (r : Fin 2) (k : Fin 128) :
    (V m c main_v3 : FVec Ideal S2x128 .f32) (ix2 r k)
      = wArr m c (ix2 (⟨128 * r.val + k.val, by have := r.isLt; have := k.isLt; omega⟩ : Fin 256) (0 : Fin 1)) :=
  Cert.KernelIdeal.Prefix.wT_apply m c r k
theorem hp_at (c : Dev nD) (n : Fin 50000) (k : Fin 128) :
    (V m c main_v4 : FVec Ideal S51200x128 .f32) (ix2 (⟨n.val, by have := n.isLt; omega⟩ : Fin 51200) k) = hArr m c (ix2 n k) :=
  Cert.KernelIdeal.Prefix.hp_apply m c n k

/-- Entry `(0, n)` of the table after the run, for a node `n`: row `n` of the node table against the first half of the
    weight column. -/
theorem table_row0 (c : Dev nD) (n : Fin 50000) :
    tblArr m c (ix2 (0 : Fin 2) (⟨n.val, by have := n.isLt; omega⟩ : Fin 51200))
      = ∑ k : Fin 128, hArr m c (ix2 n k) * wArr m c (ix2 (⟨k.val, by have := k.isLt; omega⟩ : Fin 256) (0 : Fin 1)) := by
  have e : tblArr m c = proj (V m c main_v3) (V m c main_v4) := table_eq m c
  rw [e, proj_apply]
  refine Finset.sum_congr rfl fun k _ => ?_
  rw [wT_at, hp_at, mul_comm]
  refine congrArg (fun r : Fin 256 => hArr m c (ix2 n k) * wArr m c (ix2 r (0 : Fin 1))) (Fin.ext ?_)
  show 128 * 0 + k.val = k.val
  omega

/-- Entry `(1, n)`: row `n` against the second half. -/
theorem table_row1 (c : Dev nD) (n : Fin 50000) :
    tblArr m c (ix2 (1 : Fin 2) (⟨n.val, by have := n.isLt; omega⟩ : Fin 51200))
      = ∑ k : Fin 128, hArr m c (ix2 n k) * wArr m c (ix2 (⟨128 + k.val, by have := k.isLt; omega⟩ : Fin 256) (0 : Fin 1)) := by
  have e : tblArr m c = proj (V m c main_v3) (V m c main_v4) := table_eq m c
  rw [e, proj_apply]
  refine Finset.sum_congr rfl fun k _ => ?_
  rw [wT_at, hp_at, mul_comm]
  refine congrArg (fun r : Fin 256 => hArr m c (ix2 n k) * wArr m c (ix2 r (0 : Fin 1))) (Fin.ext ?_)
  show 128 * 1 + k.val = 128 + k.val
  omega

/-- THE KERNEL'S RESULT on the evident domain is the score of the argument arrays. -/
theorem result_eq (c : Dev nD)
    (hs : ∀ e : Fin 800000, InRange (sArr m c (ix1 e))) (hd : ∀ e : Fin 800000, InRange (dArr m c (ix1 e))) :
    finish (takeFill (row0 (tblArr m c)) (sArr m c)) (takeFill (row1 (tblArr m c)) (dArr m c)) (bArr m c)
      = score (hArr m c) (sArr m c) (dArr m c) (wArr m c) (bArr m c) := by
  funext i
  obtain ⟨e, q, rfl⟩ : ∃ (e : Fin 800000) (q : Fin 1), i = ix2 e q := ⟨i 0, i 1, eq_ix2 i⟩
  rw [finish_apply, takeFill_apply _ _ hs e, takeFill_apply _ _ hd e, row0_apply, row1_apply, table_row0, table_row1]
  rfl

end Cert.KernelIdeal.Value

end
-- ==== Proof.lean ====
/-
  Edge scores of a two-endpoint linear predictor: the kernel program against its reference, over the extended reals.

  Both programs compute, per edge `e` with endpoint index words `src e`, `dst e`,
      score e = Σ_k h[row (src e), k] · W[k, 0] + Σ_k h[row (dst e), k] · W[128 + k, 0] + b[0]
  (Proof/Spec.lean). The reference gathers the two rows of the node table and contracts each against a half of the weight
  column (Proof/RefValue.lean). The kernel program contracts FIRST: one region multiplies the two halves of the weight
  column with every row of the node table, block by block, into a `[2, 51200]` table (Proof/KBlocks.lean, from the arrays
  of Proof/KPrefix.lean), and the host operations after it take the two endpoints' entries from the table's two rows and
  add them and the bias (Proof/KTake.lean, Proof/KTailRun.lean, Proof/KValue.lean). Taking an entry of a table of row
  sums is the row sum of the taken row, so the two agree once each product's factors are exchanged.

  The kernel program's take fills the positions whose index word is out of range with a fill value the reference never
  produces (the reference's gather clamps instead), so the two agree exactly where every index word addresses a row,
  `-50000 ≤ a < 50000` read signed (a negative word counts from the end): the precondition says so of both index arrays
  (Proof/PreRange.lean), next to the finiteness of the float inputs, which this proof does not use.

  The frames of the two kernel programs are the generated ones; the reference's is its generated run; the
  idealization rewrote nothing, so `preserves` has nothing to state.
-/
import proofs.«421932_j7739531067736_3_alg».proof.Defs
import proofs.«421932_j7739531067736_3_alg».proof.Proof.Gen.Kernel
import proofs.«421932_j7739531067736_3_alg».proof.Proof.Gen.Kernel.Skeleton
import proofs.«421932_j7739531067736_3_alg».proof.Proof.Gen.Kernel.Launch
import proofs.«421932_j7739531067736_3_alg».proof.Proof.Gen.Kernel.Points
import proofs.«421932_j7739531067736_3_alg».proof.Proof.Gen.Kernel.Frame
import proofs.«421932_j7739531067736_3_alg».proof.Proof.Gen.KernelIdeal
import proofs.«421932_j7739531067736_3_alg».proof.Proof.Gen.KernelIdeal.Skeleton
import proofs.«421932_j7739531067736_3_alg».proof.Proof.Gen.KernelIdeal.Launch
import proofs.«421932_j7739531067736_3_alg».proof.Proof.Gen.KernelIdeal.Points
import proofs.«421932_j7739531067736_3_alg».proof.Proof.Gen.KernelIdeal.Frame
import proofs.«421932_j7739531067736_3_alg».proof.Proof.Gen.ReferenceIdeal
import proofs.«421932_j7739531067736_3_alg».proof.Proof.Gen.Pre_finite_inputs
import proofs.«421932_j7739531067736_3_alg».proof.Proof.Gen.ReferenceIdeal.Run
import proofs.«421932_j7739531067736_3_alg».proof.Proof.Gen.ReferenceIdeal.Read
import proofs.«421932_j7739531067736_3_alg».proof.Proof.Spec
import proofs.«421932_j7739531067736_3_alg».proof.Proof.PreRange
import proofs.«421932_j7739531067736_3_alg».proof.Proof.RefValue
import proofs.«421932_j7739531067736_3_alg».proof.Proof.KTailRun
import proofs.«421932_j7739531067736_3_alg».proof.Proof.KValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no region: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the score of the argument arrays: the kernel program by its frame run read through the host
    operations after the region, on the evident domain the precondition gives; the reference by its run read stage by
    stage, the arguments agreeing. -/
theorem algebraic : Cert.algebraic_KernelIdeal_ReferenceIdeal := by
  intro m ρ m' ρ' hpre hagree
  refine ⟨fun c => Cert.EdgeScore.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · -- the kernel program: the frame run's post at the result buffer and at the argument arrays
    refine (θ_run Cert.KernelIdeal.defs _ _).mono (fun r h c => ?_) (Cert.KernelIdeal.Gen.run_main m ρ)
    have hs : ∀ e : Fin 800000, Cert.EdgeScore.InRange (m ((c.tc : Thread Cert.KernelIdeal.nD Cert.KernelIdeal.τ).loc Cert.KernelIdeal.main_arg1) (ix1 e)) :=
      fun e => (Cert.EdgeScore.Pre.inRange_of_pre _ _ _ _ _ (hpre c) e).1
    have hd : ∀ e : Fin 800000, Cert.EdgeScore.InRange (m ((c.tc : Thread Cert.KernelIdeal.nD Cert.KernelIdeal.τ).loc Cert.KernelIdeal.main_arg2) (ix1 e)) :=
      fun e => (Cert.EdgeScore.Pre.inRange_of_pre _ _ _ _ _ (hpre c) e).2
    exact ⟨((h c).2 Cert.KernelIdeal.main_v16 (Pipeline.mem_restRefs_of Cert.KernelIdeal.main_v16 (by decide) (by decide))).trans
        ((Cert.KernelIdeal.Tail.tail_eq m c).trans (Cert.KernelIdeal.Value.result_eq m c hs hd)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c)⟩
  · -- the reference: its run's term is the last stage, the last stage is the score, the arguments agree
    refine (θ_run Cert.ReferenceIdeal.defs _ _).mono (fun r h c => ⟨(h c).1.trans ?_, (h c).2⟩)
      (Cert.ReferenceIdeal.Value.run (F := Ideal) m' ρ')
    obtain ⟨a0, a1, a2, a3, a4⟩ := hagree c
    refine (Cert.ReferenceIdeal.Read.val_main_v21_eq _ _ _ _ _).trans ?_
    rw [Cert.EdgeScore.Ref.ref_eq, a0, a1, a2, a3, a4]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
